-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_0)) (v2 : (c : Dev Cert.KernelIdeal.nD) → Buf (Elt Ideal) ((c.tc : Thread Cert.KernelIdeal.nD Cert.KernelIdeal.τ).loc Cert.KernelIdeal.main_v10_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_0) = v1 c
          ∧ r.2.mem ((c.tc : Thread Cert.KernelIdeal.nD Cert.KernelIdeal.τ).loc Cert.KernelIdeal.main_v10_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_v38) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S4x1024x1024 : Shape := ⟨3, ![4, 1024, 1024]⟩
abbrev S4x1024 : Shape := ⟨2, ![4, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S4x1024x1024 : S_.BroadcastsInDim S4x1024x1024 (![] : Fin 0 → Fin S4x1024x1024.rank)
  reducesTo_S4x1024x1024_S_d0_1_2 : S4x1024x1024.ReducesTo [0, 1, 2] S_
  bcast_S_S4x1024 : S_.BroadcastsInDim S4x1024 (![] : Fin 0 → Fin S4x1024.rank)
  reducesTo_S4x1024_S_d0_1 : S4x1024.ReducesTo [0, 1] S_

variable [Facts]

def fn_part1 {F : FTy → Type} [FloatOps F] (main_arg4 : FVec F S4x1024x1024 .f32) (main_arg5 : FVec F S4x1024 .f32) (main_arg6 : FVec F S4x1024 .f32) (main_v13 : IVec S_ 1) (main_v16 : IVec S4x1024x1024 1) : IVec S_ 1 :=
  let main_c_5 : IVec S_ 1 := constantI S_ 1 1#1
  let main_v17 : IVec S_ 1 := (fun x v => Host.reduce IntOp.andi x v reducesTo_S4x1024x1024_S_d0_1_2 h_S_) main_v16 main_c_5
  let main_v18 : IVec S_ 1 := andi main_v13 main_v17
  let main_v19 : FVec F S4x1024x1024 .f32 := Host.absf main_arg4
  let main_cst_6 : FVec F S_ .f32 := constant S_ .f32 0x7F800000#32
  let main_v20 : FVec F S4x1024x1024 .f32 := broadcastInDim S4x1024x1024 ![] bcast_S_S4x1024x1024 main_cst_6
  let main_v21 : IVec S4x1024x1024 1 := cmpf .olt main_v19 main_v20
  let main_c_7 : IVec S_ 1 := constantI S_ 1 1#1
  let main_v22 : IVec S_ 1 := (fun x v => Host.reduce IntOp.andi x v reducesTo_S4x1024x1024_S_d0_1_2 h_S_) main_v21 main_c_7
  let main_v23 : IVec S_ 1 := andi main_v18 main_v22
  let main_v24 : FVec F S4x1024 .f32 := Host.absf main_arg5
  let main_cst_8 : FVec F S_ .f32 := constant S_ .f32 0x7F800000#32
  let main_v25 : FVec F S4x1024 .f32 := broadcastInDim S4x1024 ![] bcast_S_S4x1024 main_cst_8
  let main_v26 : IVec S4x1024 1 := cmpf .olt main_v24 main_v25
  let main_c_9 : IVec S_ 1 := constantI S_ 1 1#1
  let main_v27 : IVec S_ 1 := (fun x v => Host.reduce IntOp.andi x v reducesTo_S4x1024_S_d0_1 h_S_) main_v26 main_c_9
  let main_v28 : IVec S_ 1 := andi main_v23 main_v27
  let main_v29 : FVec F S4x1024 .f32 := Host.absf main_arg6
  let main_cst_10 : FVec F S_ .f32 := constant S_ .f32 0x7F800000#32
  let main_v30 : FVec F S4x1024 .f32 := broadcastInDim S4x1024 ![] bcast_S_S4x1024 main_cst_10
  let main_v31 : IVec S4x1024 1 := cmpf .olt main_v29 main_v30
  let main_c_11 : IVec S_ 1 := constantI S_ 1 1#1
  let main_v32 : IVec S_ 1 := (fun x v => Host.reduce IntOp.andi x v reducesTo_S4x1024_S_d0_1 h_S_) main_v31 main_c_11
  let main_v33 : IVec S_ 1 := andi main_v28 main_v32
  main_v33

def fn {F : FTy → Type} [FloatOps F] (main_arg0 : FVec F S8192x1024 .f32) (main_arg1 : FVec F S8192x1024 .f32) (main_arg2 : FVec F S8192x1024 .f32) (main_arg3 : FVec F S4x1024x1024 .f32) (main_arg4 : FVec F S4x1024x1024 .f32) (main_arg5 : FVec F S4x1024 .f32) (main_arg6 : FVec F S4x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S4x1024x1024 .f32 := Host.absf main_arg3
  let main_cst_4 : FVec F S_ .f32 := constant S_ .f32 0x7F800000#32
  let main_v15 : FVec F S4x1024x1024 .f32 := broadcastInDim S4x1024x1024 ![] bcast_S_S4x1024x1024 main_cst_4
  let main_v16 : IVec S4x1024x1024 1 := cmpf .olt main_v14 main_v15
  fn_part1 (F := F) main_arg4 main_arg5 main_arg6 main_v13 main_v16
-- ==== Kernel.lean ====
abbrev S8192x1024 : Shape := ⟨2, ![8192, 1024]⟩
abbrev S4x1024x1024 : Shape := ⟨3, ![4, 1024, 1024]⟩
abbrev S4x1024 : Shape := ⟨2, ![4, 1024]⟩
abbrev S4096x1024 : Shape := ⟨2, ![4096, 1024]⟩
abbrev S1024x4096 : Shape := ⟨2, ![1024, 4096]⟩
abbrev S4096 : Shape := ⟨1, ![4096]⟩
abbrev S1x4096 : Shape := ⟨2, ![1, 4096]⟩
abbrev S256x1024 : Shape := ⟨2, ![256, 1024]⟩
abbrev S256x4096 : Shape := ⟨2, ![256, 4096]⟩

abbrev nBuf : Space → Nat
  | .hbm => 19
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S4x1024x1024, .f32⟩
  | .hbm, ⟨4, _⟩ => ⟨S4x1024x1024, .f32⟩
  | .hbm, ⟨5, _⟩ => ⟨S4x1024, .f32⟩
  | .hbm, ⟨6, _⟩ => ⟨S4x1024, .f32⟩
  | .hbm, ⟨7, _⟩ => ⟨S4096x1024, .f32⟩
  | .hbm, ⟨8, _⟩ => ⟨S1024x4096, .f32⟩
  | .hbm, ⟨9, _⟩ => ⟨S1024x4096, .bf16⟩
  | .hbm, ⟨10, _⟩ => ⟨S4096x1024, .f32⟩
  | .hbm, ⟨11, _⟩ => ⟨S1024x4096, .f32⟩
  | .hbm, ⟨12, _⟩ => ⟨S1024x4096, .bf16⟩
  | .hbm, ⟨13, _⟩ => ⟨S4096, .f32⟩
  | .hbm, ⟨14, _⟩ => ⟨S4096, .f32⟩
  | .hbm, ⟨15, _⟩ => ⟨S4096, .f32⟩
  | .hbm, ⟨16, _⟩ => ⟨S1x4096, .f32⟩
  | .hbm, ⟨17, _⟩ => ⟨S8192x1024, .f32⟩
  | .hbm, ⟨18, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1024x4096, .bf16⟩
  | .local _ .vmem, ⟨7, _⟩ => ⟨S1024x4096, .bf16⟩
  | .local _ .vmem, ⟨8, _⟩ => ⟨S1x4096, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S4x1024x1024_S4096x1024 : S4x1024x1024.ShapeCasts S4096x1024
  transposes_S4096x1024_S1024x4096_1_0 : S4096x1024.Transposes [1, 0] S1024x4096
  bitsLt_bf16_f32 : FTy.bits .bf16 < FTy.bits .f32
  shapeCasts_S4x1024_S4096 : S4x1024.ShapeCasts S4096
  shapeCasts_S4096_S1x4096 : S4096.ShapeCasts S1x4096
  inb_S256x1024_S256x1024_0_0 : ∀ a, (![0, 0] : Fin 2 → Nat) a + S256x1024.size a ≤ S256x1024.size a
  h_S256x1024 : 0 < S256x1024.numel
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  slices_S256x4096_o0_0_S256x1024 : S256x4096.Slices ![0, 0] S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  dot_S256x1024_S1024x4096_S256x4096_1_0_0_1_n_n_wf : DotDims.WF S256x1024 S1024x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .f32 = 32 ∨ (Rect.block (s := S8192x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S8192x1024.size a
  hwx0_1 : ∀ i : grid0.Coords, EltTy.bits .f32 = 32 ∨ (Rect.block (s := S8192x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S8192x1024.size a
  hwx0_2 : ∀ i : grid0.Coords, EltTy.bits .f32 = 32 ∨ (Rect.block (s := S8192x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S1024x4096.size a
  hwx0_3 : ∀ i : grid0.Coords, EltTy.bits .bf16 = 32 ∨ (Rect.block (s := S1024x4096) S1024x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x4096.size a ≤ S1024x4096.size a
  hwx0_4 : ∀ i : grid0.Coords, EltTy.bits .bf16 = 32 ∨ (Rect.block (s := S1024x4096) S1024x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S8192x1024.size a
  hwx0_6 : ∀ i : grid0.Coords, EltTy.bits .f32 = 32 ∨ (Rect.block (s := S8192x1024) S256x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S8192x1024.size a
  hwx0_7 : ∀ i : grid0.Coords, EltTy.bits .f32 = 32 ∨ (Rect.block (s := S8192x1024) S256x1024.size (cc0_transform_7 i) (hinb0_7 i)).WholeWords (EltTy.packing .f32)

variable [Facts₀]

def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1024x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10_0) S256x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v10_1) S256x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S4x1024x1024 : Shape := ⟨3, ![4, 1024, 1024]⟩
abbrev S4x1024 : Shape := ⟨2, ![4, 1024]⟩
abbrev S8192x4x1024 : Shape := ⟨3, ![8192, 4, 1024]⟩
abbrev S1x4x1024 : Shape := ⟨3, ![1, 4, 1024]⟩
abbrev S8192x1x1024 : Shape := ⟨3, ![8192, 1, 1024]⟩
abbrev S_ : Shape := ⟨0, ![]⟩

abbrev nBuf : Space → Nat
  | .hbm => 54
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S4x1024x1024, .f32⟩
  | .hbm, ⟨4, _⟩ => ⟨S4x1024x1024, .f32⟩
  | .hbm, ⟨5, _⟩ => ⟨S4x1024, .f32⟩
  | .hbm, ⟨6, _⟩ => ⟨S4x1024, .f32⟩
  | .hbm, ⟨7, _⟩ => ⟨S8192x4x1024, .f32⟩
  | .hbm, ⟨8, _⟩ => ⟨S8192x4x1024, .f32⟩
  | .hbm, ⟨9, _⟩ => ⟨S8192x4x1024, .f32⟩
  | .hbm, ⟨10, _⟩ => ⟨S1x4x1024, .f32⟩
  | .hbm, ⟨11, _⟩ => ⟨S8192x4x1024, .f32⟩
  | .hbm, ⟨12, _⟩ => ⟨S8192x4x1024, .f32⟩
  | .hbm, ⟨13, _⟩ => ⟨S1x4x1024, .f32⟩
  | .hbm, ⟨14, _⟩ => ⟨S8192x4x1024, .f32⟩
  | .hbm, ⟨15, _⟩ => ⟨S8192x4x1024, .f32⟩
  | .hbm, ⟨16, _⟩ => ⟨S8192x1x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192x1024, .f32⟩
  | .hbm, ⟨25, _⟩ => ⟨S8192x1024, .f32⟩
  | .hbm, ⟨26, _⟩ => ⟨S8192x1x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S8192x1x1024, .f32⟩
  | .hbm, ⟨37, _⟩ => ⟨S8192x1024, .f32⟩
  | .hbm, ⟨38, _⟩ => ⟨S8192x1024, .f32⟩
  | .hbm, ⟨39, _⟩ => ⟨S8192x1x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_3 : Ref sig .tc := ⟨.hbm, 43, rfl⟩
abbrev main_v32 : Ref sig .tc := ⟨.hbm, 44, rfl⟩
abbrev main_v33 : Ref sig .tc := ⟨.hbm, 45, rfl⟩
abbrev main_cst_4 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]

class Facts₀ : Prop where
  bcast_S4x1024_S1x4x1024_1_2 : S4x1024.BroadcastsInDim S1x4x1024 (![1, 2] : Fin 2 → Fin S1x4x1024.rank)
  bcast_S1x4x1024_S8192x4x1024_0_1_2 : S1x4x1024.BroadcastsInDim S8192x4x1024 (![0, 1, 2] : Fin 3 → Fin S8192x4x1024.rank)
  slices_S8192x4x1024_S8192x1x1024_0_0_0 : S8192x4x1024.Slices ![0, 0, 0] S8192x1x1024
  shapeCasts_S8192x1x1024_S8192x1024 : S8192x1x1024.ShapeCasts S8192x1024
  bcast_S_S8192x1024 : S_.BroadcastsInDim S8192x1024 (![] : Fin 0 → Fin S8192x1024.rank)
  slices_S8192x4x1024_S8192x1x1024_0_1_0 : S8192x4x1024.Slices ![0, 1, 0] S8192x1x1024
  slices_S8192x4x1024_S8192x1x1024_0_2_0 : S8192x4x1024.Slices ![0, 2, 0] S8192x1x1024
  slices_S8192x4x1024_S8192x1x1024_0_3_0 : S8192x4x1024.Slices ![0, 3, 0] S8192x1x1024
  dot_S8192x1024_S4x1024x1024_S8192x4x1024_1_2_0_01_n_n_wf : DotDims.WF S8192x1024 S4x1024x1024 S8192x4x1024 [1] [2] [0] [0, 1] [] []

variable [Facts₀]

def dot_S8192x1024_S4x1024x1024_S8192x4x1024_1_2_0_01_n_n : DotDims S8192x1024 S4x1024x1024 S8192x4x1024 where
  lhsContracting := [1]
  rhsContracting := [2]
  lhsNonContracting := [0]
  rhsNonContracting := [0, 1]
  lhsBatch := []
  rhsBatch := []
  wf := dot_S8192x1024_S4x1024x1024_S8192x4x1024_1_2_0_01_n_n_wf

class Facts : Prop extends Facts₀ where

variable [Facts]
-- ==== Proof.GateValue.lean ====
/-
  The kernel body's gate pre-activations at an index.

  One grid point of the kernel holds 256 batch rows. Its first value is a 256 × 4096 array: the row block of the inputs
  times the 1024 × 4096 matrix of stacked, transposed input weights, plus the row block of the old hidden state times
  the same arrangement of the recurrent weights, plus the 1 × 4096 summed bias broadcast down the rows. Read on the
  extended reals (a change of float format is the identity, a matrix product into a zero accumulator is the plain sum
  over the contracted axis), entry (r, n) is
      (Σ_k X[r,k]·A[k,n] + Σ_k H[r,k]·B[k,n]) + bias[0,n].
-/
import proofs.«117419_j90958817394974_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.GateValue

open Cert.KernelIdeal Cert.KernelIdeal.Gen Idealize.ShloMosaic Idealize.ShloMosaic.ValueIdx

/-! ## The matrix product's operand indices, axis by axis -/

theorem lhs_row (i : S256x4096.Idx) (q : dot_S256x1024_S1024x4096_S256x4096_1_0_0_1_n_n.contr.Idx) :
    (dot_S256x1024_S1024x4096_S256x4096_1_0_0_1_n_n.lhsIdx i q 0).val = (i 0).val := by
  unfold DotDims.lhsIdx
  rw [dif_neg (show ¬(0 : Fin S256x1024.rank) ∈ dot_S256x1024_S1024x4096_S256x4096_1_0_0_1_n_n.lhsBatch by decide), dif_pos (show (0 : Fin S256x1024.rank) ∈ dot_S256x1024_S1024x4096_S256x4096_1_0_0_1_n_n.lhsNonContracting by decide)]
  rfl
theorem lhs_contr (i : S256x4096.Idx) (q : dot_S256x1024_S1024x4096_S256x4096_1_0_0_1_n_n.contr.Idx) :
    (dot_S256x1024_S1024x4096_S256x4096_1_0_0_1_n_n.lhsIdx i q 1).val = (q ⟨0, by decide⟩).val :=
  dot_S256x1024_S1024x4096_S256x4096_1_0_0_1_n_n.lhsIdx_val_of_single rfl i q
theorem rhs_contr (i : S256x4096.Idx) (q : dot_S256x1024_S1024x4096_S256x4096_1_0_0_1_n_n.contr.Idx) :
    (dot_S256x1024_S1024x4096_S256x4096_1_0_0_1_n_n.rhsIdx i q 0).val = (q ⟨0, by decide⟩).val :=
  dot_S256x1024_S1024x4096_S256x4096_1_0_0_1_n_n.rhsIdx_val_of_single rfl i q
theorem rhs_col (i : S256x4096.Idx) (q : dot_S256x1024_S1024x4096_S256x4096_1_0_0_1_n_n.contr.Idx) :
    (dot_S256x1024_S1024x4096_S256x4096_1_0_0_1_n_n.rhsIdx i q 1).val = (i 1).val := by
  unfold DotDims.rhsIdx
  rw [dif_neg (show ¬(1 : Fin S1024x4096.rank) ∈ dot_S256x1024_S1024x4096_S256x4096_1_0_0_1_n_n.rhsBatch by decide), dif_pos (show (1 : Fin S1024x4096.rank) ∈ dot_S256x1024_S1024x4096_S256x4096_1_0_0_1_n_n.rhsNonContracting by decide)]
  rfl

/-- A 256 × 1024 by 1024 × 4096 product into the zero accumulator, at (r, n): the sum over the 1024 shared
    coordinates of row r of the left factor against column n of the right. -/
theorem product_apply (A : FVec Ideal S256x1024 .bf16) (B : FVec Ideal S1024x4096 .bf16) (r : Fin 256) (n : Fin 4096) :
    matmul dot_S256x1024_S1024x4096_S256x4096_1_0_0_1_n_n none A B (constant (F := Ideal) S256x4096 .f32 0x00000000#32) (ix2 r n)
      = ∑ k : Fin 1024, A (ix2 r k) * B (ix2 k n) := by
  simp only [matmul]
  rw [Ideal.matmul_constant_zero_apply, ← Equiv.sum_comp (contrEquiv1 dot_S256x1024_S1024x4096_S256x4096_1_0_0_1_n_n 1024 rfl rfl).symm]
  refine Finset.sum_congr rfl fun k _ => ?_
  have hk := contrEquiv1_symm_val dot_S256x1024_S1024x4096_S256x4096_1_0_0_1_n_n 1024 rfl rfl k
  have el : dot_S256x1024_S1024x4096_S256x4096_1_0_0_1_n_n.lhsIdx (ix2 r n) ((contrEquiv1 dot_S256x1024_S1024x4096_S256x4096_1_0_0_1_n_n 1024 rfl rfl).symm k) = ix2 r k := funext fun a => Fin.ext (by
    match a with
    | ⟨0, _⟩ => exact lhs_row _ _
    | ⟨1, _⟩ => exact (lhs_contr _ _).trans hk)
  have er : dot_S256x1024_S1024x4096_S256x4096_1_0_0_1_n_n.rhsIdx (ix2 r n) ((contrEquiv1 dot_S256x1024_S1024x4096_S256x4096_1_0_0_1_n_n 1024 rfl rfl).symm k) = ix2 k n := funext fun a => Fin.ext (by
    match a with
    | ⟨0, _⟩ => exact (rhs_contr _ _).trans hk
    | ⟨1, _⟩ => exact rhs_col _ _)
  rw [el, er]

/-- The bias row broadcast down the 256 rows, at (r, n), is the bias at (0, n). -/
theorem bias_apply (v : FVec Ideal S1x4096 .f32) (r : Fin 256) (n : Fin 4096) :
    broadcastTo S256x4096 v broadcasts_S1x4096_S256x4096 (ix2 r n) = v (ix2 0 n) :=
  broadcastTo_apply v broadcasts_S1x4096_S256x4096 (ix2 r n) (ix2 0 n) (fun a => match a with
    | ⟨0, _⟩ => by show 0 = if (1 : Nat) = 1 then 0 else r.val; rw [if_pos rfl]
    | ⟨1, _⟩ => by show n.val = if (4096 : Nat) = 1 then 0 else n.val; rw [if_neg (by decide)])

/-- The body's 256 × 4096 array of gate pre-activations at (r, n). -/
theorem gates_apply (X H : Vec Ideal S256x1024 .f32) (A B : Vec Ideal S1024x4096 .bf16) (bias : Vec Ideal S1x4096 .f32)
    (r : Fin 256) (n : Fin 4096) :
    k0_pay1 X H A B bias (ix2 r n)
      = ((∑ k : Fin 1024, X (ix2 r k) * A (ix2 k n)) + ∑ k : Fin 1024, H (ix2 r k) * B (ix2 k n)) + bias (ix2 0 n) := by
  unfold k0_pay1
  simp only [shapeCast_self]
  rw [addf_apply, addf_apply, product_apply, product_apply, bias_apply]
  rfl

end Cert.KernelIdeal.GateValue

end
-- ==== Proof.HostArrays.lean ====
/-
  The three arrays the host prepares for the kernel, read at an index.

  Before the kernel runs, the stacked 4 × 1024 × 1024 input weights are flattened to 4096 × 1024, transposed to
  1024 × 4096 and narrowed to bf16 (the identity on the extended reals); the recurrent weights likewise; and the two
  4 × 1024 biases are flattened to 4096, added and viewed as 1 × 4096. So column n = 1024·g + j of the prepared weight
  matrix at row k is the weight of gate g, hidden unit j, feature k, and the prepared bias at (0, n) is the sum of the
  two biases of gate g, unit j.
-/
import proofs.«117419_j90958817394974_1_alg».proof.Proof.Gen.KernelIdeal.Frame
import Idealize.ShloMosaic.Lib.StableHlo.Run
import Idealize.ShloMosaic.Lib.Pipeline.Value
import Idealize.ShloMosaic.Lib.ValueIdx

noncomputable section

namespace Cert.KernelIdeal.HostArrays

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-- A 4 × 1024 × 1024 array flattened, transposed and narrowed, at (k, n) with n = 1024·g + j, is the array at
    (g, j, k). -/
theorem prepared_weight_apply (W : FVec Ideal S4x1024x1024 .f32) (g : Fin 4) (j k : Fin 1024) (n : Fin 4096)
    (hn : n.val = g.val * 1024 + j.val) :
    (truncf .bf16 (transpose S1024x4096 [1, 0] (shapeCast S4096x1024 W shapeCasts_S4x1024x1024_S4096x1024)
      transposes_S4096x1024_S1024x4096_1_0) bitsLt_bf16_f32 : FVec Ideal S1024x4096 .bf16) (ix2 k n) = W (ix3 g j k) := by
  rw [truncf_apply]
  refine (transpose_apply [1, 0] _ transposes_S4096x1024_S1024x4096_1_0 (ix2 k n) (ix2 n k) (fun b => match b with
    | ⟨0, _⟩ => rfl
    | ⟨1, _⟩ => rfl)).trans ?_
  refine shapeCast_apply W shapeCasts_S4x1024x1024_S4096x1024 (ix2 n k) (ix3 g j k) ?_
  rw [Shape.rowMajor_val_three, Shape.rowMajor_val_two]
  show (g.val * 1024 + j.val) * 1024 + k.val = n.val * 1024 + k.val
  rw [hn]

/-- A 4 × 1024 array flattened, at n = 1024·g + j, is the array at (g, j). -/
theorem flat_apply (w : FVec Ideal S4x1024 .f32) (g : Fin 4) (j : Fin 1024) (n : Fin 4096)
    (hn : n.val = g.val * 1024 + j.val) :
    (shapeCast S4096 w shapeCasts_S4x1024_S4096 : FVec Ideal S4096 .f32) (ix1 n) = w (ix2 g j) :=
  shapeCast_apply w shapeCasts_S4x1024_S4096 (ix1 n) (ix2 g j) (by
    rw [Shape.rowMajor_val_two, Shape.rowMajor_val_one]
    show g.val * 1024 + j.val = n.val
    omega)

/-- A length-4096 array viewed as one row, at (0, n), is the array at n. -/
theorem row_view_apply (w : FVec Ideal S4096 .f32) (n : Fin 4096) :
    (shapeCast S1x4096 w shapeCasts_S4096_S1x4096 : FVec Ideal S1x4096 .f32) (ix2 (0 : Fin 1) n) = w (ix1 n) :=
  shapeCast_apply w shapeCasts_S4096_S1x4096 (ix2 (0 : Fin 1) n) (ix1 n) (by
    rw [Shape.rowMajor_val_one, Shape.rowMajor_val_two]
    show n.val = (0 : Fin 1).val * 4096 + n.val
    rw [show (0 : Fin 1).val = 0 from rfl]
    omega)

/-- Two 4 × 1024 arrays flattened, added and viewed as one row, at (0, n) with n = 1024·g + j: the sum of their
    entries at (g, j). -/
theorem prepared_bias_apply (u v : FVec Ideal S4x1024 .f32) (g : Fin 4) (j : Fin 1024) (n : Fin 4096)
    (hn : n.val = g.val * 1024 + j.val) :
    (shapeCast S1x4096 (addf (shapeCast S4096 u shapeCasts_S4x1024_S4096 : FVec Ideal S4096 .f32) (shapeCast S4096 v shapeCasts_S4x1024_S4096))
      shapeCasts_S4096_S1x4096 : FVec Ideal S1x4096 .f32) (ix2 (0 : Fin 1) n) = u (ix2 g j) + v (ix2 g j) := by
  rw [row_view_apply, addf_apply, flat_apply u g j n hn, flat_apply v g j n hn]

/-! ## The arrays as the kernel finds them -/

/-- The argument arrays at their literal types. -/
abbrev argWx (c : Dev nD) : FVec Ideal S4x1024x1024 .f32 := m ((c : Thread nD τ).loc main_arg3)
abbrev argWh (c : Dev nD) : FVec Ideal S4x1024x1024 .f32 := m ((c : Thread nD τ).loc main_arg4)
abbrev argBx (c : Dev nD) : FVec Ideal S4x1024 .f32 := m ((c : Thread nD τ).loc main_arg5)
abbrev argBh (c : Dev nD) : FVec Ideal S4x1024 .f32 := m ((c : Thread nD τ).loc main_arg6)
/-- The prepared arrays at their literal types. -/
abbrev prepWx (c : Dev nD) : FVec Ideal S1024x4096 .bf16 := V m c main_v2
abbrev prepWh (c : Dev nD) : FVec Ideal S1024x4096 .bf16 := V m c main_v5
abbrev prepBias (c : Dev nD) : FVec Ideal S1x4096 .f32 := V m c main_v9

/-- The prepared input weights. -/
theorem wx_eq (c : Dev nD) : prepWx m c =
    (truncf .bf16 (transpose S1024x4096 [1, 0] (shapeCast S4096x1024 (argWx m c) shapeCasts_S4x1024x1024_S4096x1024)
      transposes_S4096x1024_S1024x4096_1_0) bitsLt_bf16_f32 : FVec Ideal S1024x4096 .bf16) := by
  dsimp only [prepWx, argWx, V, hostOps0]; after_results; rfl

/-- The prepared recurrent weights. -/
theorem wh_eq (c : Dev nD) : prepWh m c =
    (truncf .bf16 (transpose S1024x4096 [1, 0] (shapeCast S4096x1024 (argWh m c) shapeCasts_S4x1024x1024_S4096x1024)
      transposes_S4096x1024_S1024x4096_1_0) bitsLt_bf16_f32 : FVec Ideal S1024x4096 .bf16) := by
  dsimp only [prepWh, argWh, V, hostOps0]; after_results; rfl

/-- The prepared bias row. -/
theorem bias_eq (c : Dev nD) : prepBias m c =
    (shapeCast S1x4096 (addf (shapeCast S4096 (argBx m c) shapeCasts_S4x1024_S4096 : FVec Ideal S4096 .f32)
      (shapeCast S4096 (argBh m c) shapeCasts_S4x1024_S4096)) shapeCasts_S4096_S1x4096 : FVec Ideal S1x4096 .f32) := by
  dsimp only [prepBias, argBx, argBh, V, hostOps0]; after_results; rfl

theorem wx_apply (c : Dev nD) (g : Fin 4) (j k : Fin 1024) (n : Fin 4096) (hn : n.val = g.val * 1024 + j.val) :
    prepWx m c (ix2 k n) = argWx m c (ix3 g j k) := by
  rw [wx_eq]; exact prepared_weight_apply _ g j k n hn

theorem wh_apply (c : Dev nD) (g : Fin 4) (j k : Fin 1024) (n : Fin 4096) (hn : n.val = g.val * 1024 + j.val) :
    prepWh m c (ix2 k n) = argWh m c (ix3 g j k) := by
  rw [wh_eq]; exact prepared_weight_apply _ g j k n hn

theorem bias_apply (c : Dev nD) (g : Fin 4) (j : Fin 1024) (n : Fin 4096) (hn : n.val = g.val * 1024 + j.val) :
    prepBias m c (ix2 (0 : Fin 1) n) = argBx m c (ix2 g j) + argBh m c (ix2 g j) := by
  rw [bias_eq]; exact prepared_bias_apply _ _ g j n hn

end Cert.KernelIdeal.HostArrays

end
-- ==== Proof.LstmSpec.lean ====
/-
  The LSTM cell as one function of its seven argument arrays, index by index, on the extended reals.

  For a batch row `b`, a gate `g` (0 input, 1 forget, 2 candidate, 3 output) and a hidden unit `j` the gate's
  pre-activation is
      pre b g j = (Σ_k x[b,k]·Wx[g,j,k] + Σ_k h[b,k]·Wh[g,j,k]) + bx[g,j] + bh[g,j],
  the new cell state is  σ(pre b 1 j)·c[b,j] + σ(pre b 0 j)·tanh(pre b 2 j)  and the new hidden state is
  σ(pre b 3 j)·tanh(new cell), with σ x = 1 / (1 + e^(-x)) read with the extended reals' conventions at ±∞.
  Both programs are shown to compute exactly these two arrays; no law beyond associativity of + is needed, so
  nothing here asks the inputs to be finite.
-/
import Idealize.ShloMosaic.PureOps.Ideal
import Idealize.ShloMosaic.Lib.ValueIdx

noncomputable section

namespace Cert.LstmCell

open Idealize.ShloMosaic Idealize.ShloMosaic.ValueIdx

/-- Activations: batch × features. -/
abbrev Act : Shape := ⟨2, ![8192, 1024]⟩
/-- Stacked gate weights: gate × hidden unit × input feature. -/
abbrev Wt : Shape := ⟨3, ![4, 1024, 1024]⟩
/-- Stacked gate biases: gate × hidden unit. -/
abbrev Bs : Shape := ⟨2, ![4, 1024]⟩

/-- The pre-activation of gate `g`, hidden unit `j`, batch row `b`: the two contractions over the feature axis,
    then the two biases, added in this order. -/
def pre (x h : FVec Ideal Act .f32) (Wx Wh : FVec Ideal Wt .f32) (bx bh : FVec Ideal Bs .f32)
    (b : Fin 8192) (g : Fin 4) (j : Fin 1024) : EReal :=
  ((∑ k : Fin 1024, x (ix2 b k) * Wx (ix3 g j k)) + (∑ k : Fin 1024, h (ix2 b k) * Wh (ix3 g j k)))
    + bx (ix2 g j) + bh (ix2 g j)

/-- The new cell state: forget gate times the old cell state plus input gate times the candidate. -/
def cellNext (x h c : FVec Ideal Act .f32) (Wx Wh : FVec Ideal Wt .f32) (bx bh : FVec Ideal Bs .f32) :
    FVec Ideal Act .f32 := fun i =>
  Ideal.logistic (pre x h Wx Wh bx bh (i 0) 1 (i 1)) * c i
    + Ideal.logistic (pre x h Wx Wh bx bh (i 0) 0 (i 1)) * Ideal.tanh (pre x h Wx Wh bx bh (i 0) 2 (i 1))

/-- The new hidden state: output gate times tanh of the new cell state. -/
def hidNext (x h c : FVec Ideal Act .f32) (Wx Wh : FVec Ideal Wt .f32) (bx bh : FVec Ideal Bs .f32) :
    FVec Ideal Act .f32 := fun i =>
  Ideal.logistic (pre x h Wx Wh bx bh (i 0) 3 (i 1)) * Ideal.tanh (cellNext x h c Wx Wh bx bh i)

/-- The f32 pattern of `1.0` denotes the extended real `1`. -/
theorem one_f32 : Ideal.ofBits .f32 0x3F800000#32 = 1 := by
  simp [Ideal.ofBits, Ideal.ieee, -EReal.coe_mul]; norm_num

/-- The logistic function spelt out as a quotient, `1 / (1 + e^(-x))` with both ones given by their f32 pattern, is
    the logistic function. -/
theorem logistic_spelt (x : EReal) :
    Ideal.div (Ideal.ofBits .f32 0x3F800000#32) (Ideal.ofBits .f32 0x3F800000#32 + Ideal.exp (-x)) = Ideal.logistic x := by
  rw [one_f32]; rfl

end Cert.LstmCell

end
-- ==== Proof.CellValue.lean ====
/-
  The kernel computes the LSTM cell of `LstmSpec`: from one row of one grid point to the two result arrays.

  Grid point t handles batch rows 256·t … 256·t + 255. Its blocks of the inputs, the old hidden state and the old cell
  state are those rows of the argument arrays; the prepared weights and bias are staged whole. Row r of the point's
  gate array at column 1024·g + j is therefore the specification's pre-activation of gate g, unit j, batch row
  256·t + r — the two sums term by term, and the summed bias re-associated — and the two stored blocks are rows
  256·t … of the specification's new hidden and cell states. The 32 blocks tile the 8192 rows, so after the run the
  two result arrays are those two functions of the arguments.
-/
import proofs.«117419_j90958817394974_1_alg».proof.Proof.Gen.KernelIdeal.Value
import proofs.«117419_j90958817394974_1_alg».proof.Proof.GateValue
import proofs.«117419_j90958817394974_1_alg».proof.Proof.HostArrays
import proofs.«117419_j90958817394974_1_alg».proof.Proof.LstmSpec

noncomputable section

namespace Cert.KernelIdeal.CellValue

open Cert.KernelIdeal Cert.KernelIdeal.Gen Cert.LstmCell Idealize.ShloMosaic Idealize.ShloMosaic.TcCoe Idealize.SL.Sem
open Idealize.ShloMosaic.ValueIdx
open Idealize.ShloMosaic.Pipeline (Dat)

/-- Column 1024·g + j of the 4096 stacked gate columns. -/
def col (g : Fin 4) (j : Fin 1024) : Fin 4096 := ⟨g.val * 1024 + j.val, by have := g.isLt; have := j.isLt; omega⟩

/-! ## One row of one grid point, over variables -/

section Point

variable (X H C : Vec Ideal S256x1024 .f32) (A B : Vec Ideal S1024x4096 .bf16) (bias : Vec Ideal S1x4096 .f32)
variable (x h c : FVec Ideal Act .f32) (Wx Wh : FVec Ideal Wt .f32) (bx bh : FVec Ideal Bs .f32)
variable (r : Fin 256) (b : Fin 8192)

/-- Row r of the point's gate array, at the column of gate g and unit j, is the pre-activation of batch row b: the
    point's rows are the arrays' rows, the prepared columns are the stacked weights, and
    (s + s') + (u + v) = ((s + s') + u) + v. -/
theorem gate_point (hX : ∀ k : Fin 1024, X (ix2 r k) = x (ix2 b k)) (hH : ∀ k : Fin 1024, H (ix2 r k) = h (ix2 b k))
    (hA : ∀ (g : Fin 4) (j k : Fin 1024), A (ix2 k (col g j)) = Wx (ix3 g j k))
    (hB : ∀ (g : Fin 4) (j k : Fin 1024), B (ix2 k (col g j)) = Wh (ix3 g j k))
    (hbias : ∀ (g : Fin 4) (j : Fin 1024), bias (ix2 (0 : Fin 1) (col g j)) = bx (ix2 g j) + bh (ix2 g j))
    (g : Fin 4) (j : Fin 1024) :
    k0_pay1 X H A B bias (ix2 r (col g j)) = pre x h Wx Wh bx bh b g j := by
  have s1 : (∑ k : Fin 1024, X (ix2 r k) * A (ix2 k (col g j))) = ∑ k : Fin 1024, x (ix2 b k) * Wx (ix3 g j k) :=
    Finset.sum_congr rfl fun k _ => by rw [hX k, hA g j k]
  have s2 : (∑ k : Fin 1024, H (ix2 r k) * B (ix2 k (col g j))) = ∑ k : Fin 1024, h (ix2 b k) * Wh (ix3 g j k) :=
    Finset.sum_congr rfl fun k _ => by rw [hH k, hB g j k]
  rw [GateValue.gates_apply, hbias g j, s1, s2]
  unfold pre
  exact (add_assoc _ _ _).symm

/-- Row r of the stored cell block is the new cell state of batch row b. -/
theorem cell_point (hX : ∀ k : Fin 1024, X (ix2 r k) = x (ix2 b k)) (hH : ∀ k : Fin 1024, H (ix2 r k) = h (ix2 b k))
    (hA : ∀ (g : Fin 4) (j k : Fin 1024), A (ix2 k (col g j)) = Wx (ix3 g j k))
    (hB : ∀ (g : Fin 4) (j k : Fin 1024), B (ix2 k (col g j)) = Wh (ix3 g j k))
    (hbias : ∀ (g : Fin 4) (j : Fin 1024), bias (ix2 (0 : Fin 1) (col g j)) = bx (ix2 g j) + bh (ix2 g j))
    (hC : ∀ j : Fin 1024, C (ix2 r j) = c (ix2 b j)) (j : Fin 1024) :
    Value.E7 X H A B bias C (ix2 r j) = cellNext x h c Wx Wh bx bh (ix2 b j) := by
  have G := gate_point X H A B bias x h Wx Wh bx bh r b hX hH hA hB hbias
  have e0 : Value.ix7_0 (ix2 r j) = ix2 r (col 1 j) := funext fun a => Fin.ext (by
    match a with
    | ⟨0, _⟩ => rfl
    | ⟨1, _⟩ => show j.val + 1024 = 1 * 1024 + j.val; omega)
  have e1 : Value.ix7_1 (ix2 r j) = ix2 r j := funext fun a => Fin.ext (by
    match a with
    | ⟨0, _⟩ => rfl
    | ⟨1, _⟩ => rfl)
  have e2 : Value.ix7_2 (ix2 r j) = ix2 r (col 0 j) := funext fun a => Fin.ext (by
    match a with
    | ⟨0, _⟩ => rfl
    | ⟨1, _⟩ => show j.val = 0 * 1024 + j.val; omega)
  have e3 : Value.ix7_3 (ix2 r j) = ix2 r (col 2 j) := funext fun a => Fin.ext (by
    match a with
    | ⟨0, _⟩ => rfl
    | ⟨1, _⟩ => show j.val + 2048 = 2 * 1024 + j.val; omega)
  show FloatOps.addf (FloatOps.mulf (FloatOps.logistic (k0_pay1 X H A B bias (Value.ix7_0 (ix2 r j)))) (C (Value.ix7_1 (ix2 r j))))
      (FloatOps.mulf (FloatOps.logistic (k0_pay1 X H A B bias (Value.ix7_2 (ix2 r j)))) (FloatOps.tanh (k0_pay1 X H A B bias (Value.ix7_3 (ix2 r j))))) = _
  rw [e0, e1, e2, e3, G 1 j, G 0 j, G 2 j, hC j]
  rfl

/-- Row r of the stored hidden block is the new hidden state of batch row b. -/
theorem hid_point (hX : ∀ k : Fin 1024, X (ix2 r k) = x (ix2 b k)) (hH : ∀ k : Fin 1024, H (ix2 r k) = h (ix2 b k))
    (hA : ∀ (g : Fin 4) (j k : Fin 1024), A (ix2 k (col g j)) = Wx (ix3 g j k))
    (hB : ∀ (g : Fin 4) (j k : Fin 1024), B (ix2 k (col g j)) = Wh (ix3 g j k))
    (hbias : ∀ (g : Fin 4) (j : Fin 1024), bias (ix2 (0 : Fin 1) (col g j)) = bx (ix2 g j) + bh (ix2 g j))
    (hC : ∀ j : Fin 1024, C (ix2 r j) = c (ix2 b j)) (j : Fin 1024) :
    Value.E6 X H A B bias C (ix2 r j) = hidNext x h c Wx Wh bx bh (ix2 b j) := by
  have G := gate_point X H A B bias x h Wx Wh bx bh r b hX hH hA hB hbias
  have e0 : Value.ix6_0 (ix2 r j) = ix2 r (col 3 j) := funext fun a => Fin.ext (by
    match a with
    | ⟨0, _⟩ => rfl
    | ⟨1, _⟩ => show j.val + 3072 = 3 * 1024 + j.val; omega)
  have e1 : Value.ix6_1 (ix2 r j) = ix2 r (col 1 j) := funext fun a => Fin.ext (by
    match a with
    | ⟨0, _⟩ => rfl
    | ⟨1, _⟩ => show j.val + 1024 = 1 * 1024 + j.val; omega)
  have e2 : Value.ix6_2 (ix2 r j) = ix2 r j := funext fun a => Fin.ext (by
    match a with
    | ⟨0, _⟩ => rfl
    | ⟨1, _⟩ => rfl)
  have e3 : Value.ix6_3 (ix2 r j) = ix2 r (col 0 j) := funext fun a => Fin.ext (by
    match a with
    | ⟨0, _⟩ => rfl
    | ⟨1, _⟩ => show j.val = 0 * 1024 + j.val; omega)
  have e4 : Value.ix6_4 (ix2 r j) = ix2 r (col 2 j) := funext fun a => Fin.ext (by
    match a with
    | ⟨0, _⟩ => rfl
    | ⟨1, _⟩ => show j.val + 2048 = 2 * 1024 + j.val; omega)
  show FloatOps.mulf (FloatOps.logistic (k0_pay1 X H A B bias (Value.ix6_0 (ix2 r j))))
      (FloatOps.tanh (FloatOps.addf (FloatOps.mulf (FloatOps.logistic (k0_pay1 X H A B bias (Value.ix6_1 (ix2 r j)))) (C (Value.ix6_2 (ix2 r j))))
        (FloatOps.mulf (FloatOps.logistic (k0_pay1 X H A B bias (Value.ix6_3 (ix2 r j)))) (FloatOps.tanh (k0_pay1 X H A B bias (Value.ix6_4 (ix2 r j))))))) = _
  rw [e0, e1, e2, e3, e4, G 3 j, G 1 j, G 0 j, G 2 j, hC j]
  rfl

end Point

/-! ## The windows' blocks -/

variable (m : (ℓ : Loc nD τ sig) → Buf (Elt Ideal) ℓ) (ρ : Dev nD → PrngReg)

theorem zero_offsets : (![0, 0] : Fin 2 → Nat) = fun _ => 0 := funext fun a => by fin_cases a <;> rfl

/-- The printed block index maps over the 32 points: the three row-blocked inputs and the two outputs sit at row block
    t, column block 0; the prepared weights and bias at block (0, 0). -/
structure IdxFacts (t : Fin cfg0.N) : Prop where
  «00» : win0_0.index t (0 : Fin 2) = t.val
  «01» : win0_0.index t (1 : Fin 2) = 0
  «10» : win0_1.index t (0 : Fin 2) = t.val
  «11» : win0_1.index t (1 : Fin 2) = 0
  «20» : win0_2.index t (0 : Fin 2) = t.val
  «21» : win0_2.index t (1 : Fin 2) = 0
  «30» : win0_3.index t (0 : Fin 2) = 0
  «31» : win0_3.index t (1 : Fin 2) = 0
  «40» : win0_4.index t (0 : Fin 2) = 0
  «41» : win0_4.index t (1 : Fin 2) = 0
  «50» : win0_5.index t (0 : Fin 2) = 0
  «51» : win0_5.index t (1 : Fin 2) = 0
  «60» : win0_6.index t (0 : Fin 2) = t.val
  «61» : win0_6.index t (1 : Fin 2) = 0
  «70» : win0_7.index t (0 : Fin 2) = t.val
  «71» : win0_7.index t (1 : Fin 2) = 0

theorem idx_raw : ∀ t : Fin cfg0.N,
    (win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0)
    ∧ (win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0) :=
  (by decide +kernel : ∀ t : Fin grid0.N, _)

theorem idx_facts (t : Fin cfg0.N) : IdxFacts t := by
  obtain ⟨⟨a0, a1, a2, a3, a4, a5, a6, a7⟩, b0, b1, b2, b3, b4, b5, b6, b7⟩ := idx_raw t
  exact ⟨a0, a1, a2, a3, a4, a5, a6, a7, b0, b1, b2, b3, b4, b5, b6, b7⟩

/-- Batch row 256·t + r. -/
def row (t : Fin cfg0.N) (r : Fin 256) : Fin 8192 :=
  ⟨256 * t.val + r.val, by have ht : t.val < 32 := lt_of_lt_of_eq t.isLt N_0; have := r.isLt; omega⟩

/-- Row r of the input block at point t is batch row 256·t + r of the inputs. -/
theorem x_blk (c : Dev nD) (t : Fin cfg0.N) (r : Fin 256) (k : Fin 1024) :
    (iblk m c 0 t : Vec Ideal S256x1024 .f32) (ix2 r k) = (m ((c : Thread nD τ).loc main_arg0) : FVec Ideal S8192x1024 .f32) (ix2 (row t r) k) := by
  have ht := (idx_facts t)
  rw [← V_main_arg0 m c]
  show V m c main_arg0 (((cfg0.win 0).blk t).view.emb (ix2 r k)) = V m c main_arg0 (ix2 (row t r) k)
  refine congrArg (V m c main_arg0) (funext fun a => Fin.ext ?_)
  match a with
  | ⟨0, _⟩ => show win0_0.index t (0 : Fin 2) * 256 + 1 * r.val = 256 * t.val + r.val; rw [ht.«00»]; omega
  | ⟨1, _⟩ => show win0_0.index t (1 : Fin 2) * 1024 + 1 * k.val = k.val; rw [ht.«01»]; omega

/-- The same for the old hidden state, -/
theorem h_blk (c : Dev nD) (t : Fin cfg0.N) (r : Fin 256) (k : Fin 1024) :
    (iblk m c 1 t : Vec Ideal S256x1024 .f32) (ix2 r k) = (m ((c : Thread nD τ).loc main_arg1) : FVec Ideal S8192x1024 .f32) (ix2 (row t r) k) := by
  have ht := (idx_facts t)
  rw [← V_main_arg1 m c]
  show V m c main_arg1 (((cfg0.win 1).blk t).view.emb (ix2 r k)) = V m c main_arg1 (ix2 (row t r) k)
  refine congrArg (V m c main_arg1) (funext fun a => Fin.ext ?_)
  match a with
  | ⟨0, _⟩ => show win0_1.index t (0 : Fin 2) * 256 + 1 * r.val = 256 * t.val + r.val; rw [ht.«10»]; omega
  | ⟨1, _⟩ => show win0_1.index t (1 : Fin 2) * 1024 + 1 * k.val = k.val; rw [ht.«11»]; omega

/-- and for the old cell state. -/
theorem c_blk (c : Dev nD) (t : Fin cfg0.N) (r : Fin 256) (k : Fin 1024) :
    (iblk m c 2 t : Vec Ideal S256x1024 .f32) (ix2 r k) = (m ((c : Thread nD τ).loc main_arg2) : FVec Ideal S8192x1024 .f32) (ix2 (row t r) k) := by
  have ht := (idx_facts t)
  rw [← V_main_arg2 m c]
  show V m c main_arg2 (((cfg0.win 2).blk t).view.emb (ix2 r k)) = V m c main_arg2 (ix2 (row t r) k)
  refine congrArg (V m c main_arg2) (funext fun a => Fin.ext ?_)
  match a with
  | ⟨0, _⟩ => show win0_2.index t (0 : Fin 2) * 256 + 1 * r.val = 256 * t.val + r.val; rw [ht.«20»]; omega
  | ⟨1, _⟩ => show win0_2.index t (1 : Fin 2) * 1024 + 1 * k.val = k.val; rw [ht.«21»]; omega

/-- The prepared input weights are staged whole at every point. -/
theorem wx_blk (c : Dev nD) (t : Fin cfg0.N) (k : Fin 1024) (n : Fin 4096) :
    (iblk m c 3 t : Vec Ideal S1024x4096 .bf16) (ix2 k n) = HostArrays.prepWx m c (ix2 k n) := by
  have ht := idx_facts t
  show V m c main_v2 (((cfg0.win 3).blk t).view.emb (ix2 k n)) = V m c main_v2 (ix2 k n)
  refine congrArg (V m c main_v2) (funext fun a => Fin.ext ?_)
  match a with
  | ⟨0, _⟩ => show win0_3.index t (0 : Fin 2) * 1024 + 1 * k.val = k.val; rw [ht.«30»]; omega
  | ⟨1, _⟩ => show win0_3.index t (1 : Fin 2) * 4096 + 1 * n.val = n.val; rw [ht.«31»]; omega

/-- So are the prepared recurrent weights, -/
theorem wh_blk (c : Dev nD) (t : Fin cfg0.N) (k : Fin 1024) (n : Fin 4096) :
    (iblk m c 4 t : Vec Ideal S1024x4096 .bf16) (ix2 k n) = HostArrays.prepWh m c (ix2 k n) := by
  have ht := idx_facts t
  show V m c main_v5 (((cfg0.win 4).blk t).view.emb (ix2 k n)) = V m c main_v5 (ix2 k n)
  refine congrArg (V m c main_v5) (funext fun a => Fin.ext ?_)
  match a with
  | ⟨0, _⟩ => show win0_4.index t (0 : Fin 2) * 1024 + 1 * k.val = k.val; rw [ht.«40»]; omega
  | ⟨1, _⟩ => show win0_4.index t (1 : Fin 2) * 4096 + 1 * n.val = n.val; rw [ht.«41»]; omega

/-- and the prepared bias row. -/
theorem bias_blk (c : Dev nD) (t : Fin cfg0.N) (n : Fin 4096) :
    (iblk m c 5 t : Vec Ideal S1x4096 .f32) (ix2 (0 : Fin 1) n) = HostArrays.prepBias m c (ix2 (0 : Fin 1) n) := by
  have ht := idx_facts t
  show V m c main_v9 (((cfg0.win 5).blk t).view.emb (ix2 (0 : Fin 1) n)) = V m c main_v9 (ix2 (0 : Fin 1) n)
  refine congrArg (V m c main_v9) (funext fun a => Fin.ext ?_)
  match a with
  | ⟨0, _⟩ => show win0_5.index t (0 : Fin 2) * 1 + 1 * (0 : Fin 1).val = (0 : Fin 1).val; rw [ht.«50»]; rfl
  | ⟨1, _⟩ => show win0_5.index t (1 : Fin 2) * 4096 + 1 * n.val = n.val; rw [ht.«51»]; omega

/-! ## What each point writes back, and the arrays after the run -/

/-- The specification's two arrays of this memory's arguments. -/
abbrev cellArr (c : Dev nD) : FVec Ideal Act .f32 :=
  cellNext (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))
abbrev hidArr (c : Dev nD) : FVec Ideal Act .f32 :=
  hidNext (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))

/-- Point t writes back rows 256·t … of the new cell state. -/
theorem cell_flushed (c : Dev nD) (t : Fin cfg0.N) :
    (dats m 0 c).flushed 7 t = ((cfg0.win 7).blk t).view.read (Elt Ideal) (cellArr m c) := by
  rw [Value.flushed7]
  unfold out0_7
  simp only [View.ld_unit_zero (S := S256x1024) zero_offsets, View.ld_unit_zero (S := S1024x4096) zero_offsets,
    View.ld_unit_zero (S := S1x4096) zero_offsets]
  funext y
  obtain ⟨r, j, rfl⟩ : ∃ (r : Fin 256) (j : Fin 1024), y = ix2 r j := ⟨y 0, y 1, eq_ix2 y⟩
  have ht := idx_facts t
  have eo : ((cfg0.win 7).blk t).view.emb (ix2 r j) = ix2 (row t r) j := funext fun a => Fin.ext (by
    match a with
    | ⟨0, _⟩ => show win0_7.index t (0 : Fin 2) * 256 + 1 * r.val = 256 * t.val + r.val; rw [ht.«70»]; omega
    | ⟨1, _⟩ => show win0_7.index t (1 : Fin 2) * 1024 + 1 * j.val = j.val; rw [ht.«71»]; omega)
  show View.canon ([⟨r0_0, k0_pay2 (iblk m c 0 t) (iblk m c 1 t) (iblk m c 3 t) (iblk m c 4 t) (iblk m c 5 t) (iblk m c 2 t)⟩] : List (View.Piece (Elt Ideal) S256x1024 .f32)) (ix2 r j)
    = cellArr m c (((cfg0.win 7).blk t).view.emb (ix2 r j))
  rw [eo]
  refine (Value.canon7_eq (iblk m c 0 t) (iblk m c 1 t) (iblk m c 3 t) (iblk m c 4 t) (iblk m c 5 t) (iblk m c 2 t) (ix2 r j)).trans ?_
  exact cell_point (iblk m c 0 t) (iblk m c 1 t) (iblk m c 2 t) (iblk m c 3 t) (iblk m c 4 t) (iblk m c 5 t)
    _ _ _ _ _ _ _ r (row t r)
    (fun k => x_blk m c t r k) (fun k => h_blk m c t r k)
    (fun g j k => (wx_blk m c t k (col g j)).trans (HostArrays.wx_apply m c g j k (col g j) rfl))
    (fun g j k => (wh_blk m c t k (col g j)).trans (HostArrays.wh_apply m c g j k (col g j) rfl))
    (fun g j => (bias_blk m c t (col g j)).trans (HostArrays.bias_apply m c g j (col g j) rfl))
    (fun j => c_blk m c t r j) j

/-- Point t writes back rows 256·t … of the new hidden state. -/
theorem hid_flushed (c : Dev nD) (t : Fin cfg0.N) :
    (dats m 0 c).flushed 6 t = ((cfg0.win 6).blk t).view.read (Elt Ideal) (hidArr m c) := by
  rw [Value.flushed6]
  unfold out0_6
  simp only [View.ld_unit_zero (S := S256x1024) zero_offsets, View.ld_unit_zero (S := S1024x4096) zero_offsets,
    View.ld_unit_zero (S := S1x4096) zero_offsets]
  funext y
  obtain ⟨r, j, rfl⟩ : ∃ (r : Fin 256) (j : Fin 1024), y = ix2 r j := ⟨y 0, y 1, eq_ix2 y⟩
  have ht := idx_facts t
  have eo : ((cfg0.win 6).blk t).view.emb (ix2 r j) = ix2 (row t r) j := funext fun a => Fin.ext (by
    match a with
    | ⟨0, _⟩ => show win0_6.index t (0 : Fin 2) * 256 + 1 * r.val = 256 * t.val + r.val; rw [ht.«60»]; omega
    | ⟨1, _⟩ => show win0_6.index t (1 : Fin 2) * 1024 + 1 * j.val = j.val; rw [ht.«61»]; omega)
  show View.canon ([⟨r0_0, k0_pay3 (iblk m c 0 t) (iblk m c 1 t) (iblk m c 3 t) (iblk m c 4 t) (iblk m c 5 t) (iblk m c 2 t)⟩] : List (View.Piece (Elt Ideal) S256x1024 .f32)) (ix2 r j)
    = hidArr m c (((cfg0.win 6).blk t).view.emb (ix2 r j))
  rw [eo]
  refine (Value.canon6_eq (iblk m c 0 t) (iblk m c 1 t) (iblk m c 3 t) (iblk m c 4 t) (iblk m c 5 t) (iblk m c 2 t) (ix2 r j)).trans ?_
  exact hid_point (iblk m c 0 t) (iblk m c 1 t) (iblk m c 2 t) (iblk m c 3 t) (iblk m c 4 t) (iblk m c 5 t)
    _ _ _ _ _ _ _ r (row t r)
    (fun k => x_blk m c t r k) (fun k => h_blk m c t r k)
    (fun g j k => (wx_blk m c t k (col g j)).trans (HostArrays.wx_apply m c g j k (col g j) rfl))
    (fun g j k => (wh_blk m c t k (col g j)).trans (HostArrays.wh_apply m c g j k (col g j) rfl))
    (fun g j => (bias_blk m c t (col g j)).trans (HostArrays.bias_apply m c g j (col g j) rfl))
    (fun j => c_blk m c t r j) j

/-- An index of a result array is in point t's block iff its row is among 256·t … 256·t + 255. -/
theorem mem_blk7 (t : Fin cfg0.N) (i : S8192x1024.Idx) :
    i ∈ ((cfg0.win 7).blk t).view.set ↔ ∀ a : Fin 2, win0_7.index t a * S256x1024.size a ≤ (i a).val ∧ (i a).val < win0_7.index t a * S256x1024.size a + S256x1024.size a := by
  show i ∈ ((View.whole main_v10_1).slice (win0_7.rect t)).set ↔ _
  rw [View.set_slice_whole, Rect.mem_set_unit]
  exact Iff.rfl
theorem mem_blk6 (t : Fin cfg0.N) (i : S8192x1024.Idx) :
    i ∈ ((cfg0.win 6).blk t).view.set ↔ ∀ a : Fin 2, win0_6.index t a * S256x1024.size a ≤ (i a).val ∧ (i a).val < win0_6.index t a * S256x1024.size a + S256x1024.size a := by
  show i ∈ ((View.whole main_v10_0).slice (win0_6.rect t)).set ↔ _
  rw [View.set_slice_whole, Rect.mem_set_unit]
  exact Iff.rfl

/-- The 32 row blocks cover the 8192 rows: row i lies in the block of point i / 256. -/
theorem cover7 (i : S8192x1024.Idx) : ∃ t : Fin cfg0.N, (cfg0.win 7).flush t = true ∧ i ∈ ((cfg0.win 7).blk t).view.set := by
  have hi0 : (i 0).val < 8192 := (i 0).isLt
  have hi1 : (i 1).val < 1024 := (i 1).isLt
  obtain ⟨t, hv⟩ : ∃ t : Fin cfg0.N, t.val = (i 0).val / 256 := ⟨⟨(i 0).val / 256, by rw [show cfg0.N = 32 from N_0]; omega⟩, rfl⟩
  have ht := idx_facts t
  refine ⟨t, flush0_7 t, ?_⟩
  rw [mem_blk7]
  intro a
  match a with
  | ⟨0, _⟩ => show win0_7.index t (0 : Fin 2) * 256 ≤ (i 0).val ∧ (i 0).val < win0_7.index t (0 : Fin 2) * 256 + 256; rw [ht.«70», hv]; omega
  | ⟨1, _⟩ => show win0_7.index t (1 : Fin 2) * 1024 ≤ (i 1).val ∧ (i 1).val < win0_7.index t (1 : Fin 2) * 1024 + 1024; rw [ht.«71»]; omega
theorem cover6 (i : S8192x1024.Idx) : ∃ t : Fin cfg0.N, (cfg0.win 6).flush t = true ∧ i ∈ ((cfg0.win 6).blk t).view.set := by
  have hi0 : (i 0).val < 8192 := (i 0).isLt
  have hi1 : (i 1).val < 1024 := (i 1).isLt
  obtain ⟨t, hv⟩ : ∃ t : Fin cfg0.N, t.val = (i 0).val / 256 := ⟨⟨(i 0).val / 256, by rw [show cfg0.N = 32 from N_0]; omega⟩, rfl⟩
  have ht := idx_facts t
  refine ⟨t, flush0_6 t, ?_⟩
  rw [mem_blk6]
  intro a
  match a with
  | ⟨0, _⟩ => show win0_6.index t (0 : Fin 2) * 256 ≤ (i 0).val ∧ (i 0).val < win0_6.index t (0 : Fin 2) * 256 + 256; rw [ht.«60», hv]; omega
  | ⟨1, _⟩ => show win0_6.index t (1 : Fin 2) * 1024 ≤ (i 1).val ∧ (i 1).val < win0_6.index t (1 : Fin 2) * 1024 + 1024; rw [ht.«61»]; omega

/-- After the run the cell result array is the specification's new cell state, -/
theorem cell_final (c : Dev nD) : (dats m 0 c).arrAt 7 cfg0.N = cellArr m c :=
  (dats m 0 c).arrAt_eq_of_cover 7 (cellArr m c) (fun t _ => cell_flushed m c t) cover7

/-- and the hidden result array its new hidden state. -/
theorem hid_final (c : Dev nD) : (dats m 0 c).arrAt 6 cfg0.N = hidArr m c :=
  (dats m 0 c).arrAt_eq_of_cover 6 (hidArr m c) (fun t _ => hid_flushed m c t) cover6

/-- The kernel's run with its three results read: hidden, hidden, cell; the arguments unchanged. -/
theorem run : θ_run defs (onTc (τ := τ) (main (F := Ideal))) ⟨m, fun _ => 0, ρ⟩ fun r => ∀ c : Dev nD,
      r.2.mem ((c : Thread nD τ).loc main_v10_0) = hidArr m c
      ∧ r.2.mem ((c : Thread nD τ).loc main_v10_0) = hidArr m c
      ∧ r.2.mem ((c : Thread nD τ).loc main_v10_1) = cellArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (hid_final m c), (h c).1.trans (hid_final m c),
      (h c).2.1.trans (cell_final m c), (h c).2.2⟩)
    (Value.run_blocks m ρ)

end Cert.KernelIdeal.CellValue

end
-- ==== Proof.RefSpec.lean ====
/-
  The reference computes the LSTM cell of `LstmSpec`.

  Its program forms the 8192 × 4 × 1024 array of all gate pre-activations (two contractions of the activations against
  the stacked weights over the feature axis, their sum, then the two biases broadcast over the batch), cuts it along
  the gate axis into four 8192 × 1024 arrays, applies 1 / (1 + e^(-x)) to gates 0, 1 and 3 and tanh to gate 2, and
  combines them with the old cell state. Entry by entry that is the specification's `cellNext` and `hidNext`: the
  only steps are reading each layout operation at an index and recognising the spelt-out quotient as the logistic
  function.
-/
import proofs.«117419_j90958817394974_1_alg».proof.Proof.Gen.ReferenceIdeal.Read
import proofs.«117419_j90958817394974_1_alg».proof.Proof.LstmSpec

noncomputable section

namespace Cert.ReferenceIdeal.RefSpec

open Cert.ReferenceIdeal Cert.ReferenceIdeal.Read Cert.LstmCell Idealize.ShloMosaic Idealize.ShloMosaic.ValueIdx

variable (x0 x1 x2 : (⟨S8192x1024, .f32⟩ : BufTy).Contents (Elt Ideal)) (x3 x4 : (⟨S4x1024x1024, .f32⟩ : BufTy).Contents (Elt Ideal)) (x5 x6 : (⟨S4x1024, .f32⟩ : BufTy).Contents (Elt Ideal))

/-- The stacked pre-activations at (b, g, j). -/
theorem stacked_apply (b : Fin 8192) (g : Fin 4) (j : Fin 1024) :
    val_main_v8 (F := Ideal) x0 x1 x3 x4 x5 x6 (ix3 b g j) = pre x0 x1 x3 x4 x5 x6 b g j := by
  rw [val_main_v8_apply, val_main_v7_apply, val_main_v6_apply, val_main_v5_apply, val_main_v4_apply, val_main_v3_apply,
    val_main_v2_apply, val_main_v0_apply, val_main_v1_apply]
  have el0 : ∀ k : Fin 1024, lidx_main_v0 (ix3 b g j) k = ix2 b k := fun k => funext fun a => Fin.ext (by
    match a with | ⟨0, _⟩ => rfl | ⟨1, _⟩ => rfl)
  have er0 : ∀ k : Fin 1024, ridx_main_v0 (ix3 b g j) k = ix3 g j k := fun k => funext fun a => Fin.ext (by
    match a with | ⟨0, _⟩ => rfl | ⟨1, _⟩ => rfl | ⟨2, _⟩ => rfl)
  have el1 : ∀ k : Fin 1024, lidx_main_v1 (ix3 b g j) k = ix2 b k := fun k => funext fun a => Fin.ext (by
    match a with | ⟨0, _⟩ => rfl | ⟨1, _⟩ => rfl)
  have er1 : ∀ k : Fin 1024, ridx_main_v1 (ix3 b g j) k = ix3 g j k := fun k => funext fun a => Fin.ext (by
    match a with | ⟨0, _⟩ => rfl | ⟨1, _⟩ => rfl | ⟨2, _⟩ => rfl)
  have eb0 : idx_main_v3 (idx_main_v4 (ix3 b g j)) = ix2 g j := funext fun a => Fin.ext (by
    match a with | ⟨0, _⟩ => rfl | ⟨1, _⟩ => rfl)
  have eb1 : idx_main_v6 (idx_main_v7 (ix3 b g j)) = ix2 g j := funext fun a => Fin.ext (by
    match a with | ⟨0, _⟩ => rfl | ⟨1, _⟩ => rfl)
  simp only [el0, er0, el1, er1, eb0, eb1, Ideal.addf_def]
  rfl

/-- The slice at gate 0, with its unit axis dropped: the input gate's pre-activation. -/
theorem gate_input (b : Fin 8192) (j : Fin 1024) :
    val_main_v10 (F := Ideal) x0 x1 x3 x4 x5 x6 (ix2 b j) = pre x0 x1 x3 x4 x5 x6 b 0 j := by
  rw [val_main_v10_apply, val_main_v9_apply]
  have e : idx_main_v9 (idx_main_v10 (ix2 b j)) = ix3 b 0 j := funext fun a => Fin.ext (by
    have hb : b.val < 8192 := b.isLt
    have hj : j.val < 1024 := j.isLt
    match a with
    | ⟨0, _⟩ => show (b.val * 1024 + j.val) / 1024 = b.val; omega
    | ⟨1, _⟩ => rfl
    | ⟨2, _⟩ => show (b.val * 1024 + j.val) % 1024 = j.val; omega)
  rw [e, stacked_apply]

/-- The slice at gate 1: the forget gate's pre-activation. -/
theorem gate_forget (b : Fin 8192) (j : Fin 1024) :
    val_main_v18 (F := Ideal) x0 x1 x3 x4 x5 x6 (ix2 b j) = pre x0 x1 x3 x4 x5 x6 b 1 j := by
  rw [val_main_v18_apply, val_main_v17_apply]
  have e : idx_main_v17 (idx_main_v18 (ix2 b j)) = ix3 b 1 j := funext fun a => Fin.ext (by
    have hb : b.val < 8192 := b.isLt
    have hj : j.val < 1024 := j.isLt
    match a with
    | ⟨0, _⟩ => show (b.val * 1024 + j.val) / 1024 = b.val; omega
    | ⟨1, _⟩ => rfl
    | ⟨2, _⟩ => show (b.val * 1024 + j.val) % 1024 = j.val; omega)
  rw [e, stacked_apply]

/-- The slice at gate 2: the candidate's pre-activation. -/
theorem gate_candidate (b : Fin 8192) (j : Fin 1024) :
    val_main_v26 (F := Ideal) x0 x1 x3 x4 x5 x6 (ix2 b j) = pre x0 x1 x3 x4 x5 x6 b 2 j := by
  rw [val_main_v26_apply, val_main_v25_apply]
  have e : idx_main_v25 (idx_main_v26 (ix2 b j)) = ix3 b 2 j := funext fun a => Fin.ext (by
    have hb : b.val < 8192 := b.isLt
    have hj : j.val < 1024 := j.isLt
    match a with
    | ⟨0, _⟩ => show (b.val * 1024 + j.val) / 1024 = b.val; omega
    | ⟨1, _⟩ => rfl
    | ⟨2, _⟩ => show (b.val * 1024 + j.val) % 1024 = j.val; omega)
  rw [e, stacked_apply]

/-- The slice at gate 3: the output gate's pre-activation. -/
theorem gate_output (b : Fin 8192) (j : Fin 1024) :
    val_main_v29 (F := Ideal) x0 x1 x3 x4 x5 x6 (ix2 b j) = pre x0 x1 x3 x4 x5 x6 b 3 j := by
  rw [val_main_v29_apply, val_main_v28_apply]
  have e : idx_main_v28 (idx_main_v29 (ix2 b j)) = ix3 b 3 j := funext fun a => Fin.ext (by
    have hb : b.val < 8192 := b.isLt
    have hj : j.val < 1024 := j.isLt
    match a with
    | ⟨0, _⟩ => show (b.val * 1024 + j.val) / 1024 = b.val; omega
    | ⟨1, _⟩ => rfl
    | ⟨2, _⟩ => show (b.val * 1024 + j.val) % 1024 = j.val; omega)
  rw [e, stacked_apply]

/-- The reference's third result is the specification's new cell state. -/
theorem cell_eq : val_main_v38 (F := Ideal) x0 x1 x2 x3 x4 x5 x6 = cellNext x0 x1 x2 x3 x4 x5 x6 := by
  funext i
  obtain ⟨b, j, rfl⟩ : ∃ (b : Fin 8192) (j : Fin 1024), i = ix2 b j := ⟨i 0, i 1, eq_ix2 i⟩
  rw [val_main_v38_apply, val_main_v36_apply, val_main_v37_apply,
    val_main_v24_apply, val_main_v23_apply, val_main_cst_2_apply, val_main_v22_apply, val_main_v21_apply, val_main_cst_1_apply,
    val_main_v20_apply, val_main_v19_apply, gate_forget,
    val_main_v16_apply, val_main_v15_apply, val_main_cst_0_apply, val_main_v14_apply, val_main_v13_apply, val_main_cst_apply,
    val_main_v12_apply, val_main_v11_apply, gate_input,
    val_main_v27_apply, gate_candidate]
  simp only [Ideal.hostDivf_def, Ideal.addf_def, Ideal.mulf_def, Ideal.hostUnary_exp_def, Ideal.hostNegf_def, Ideal.negf_def, Ideal.hostUnary_tanh_def, Ideal.ofBits_def, logistic_spelt]
  rfl

/-- The reference's first and second results are the specification's new hidden state. -/
theorem hid_eq : val_main_v40 (F := Ideal) x0 x1 x2 x3 x4 x5 x6 = hidNext x0 x1 x2 x3 x4 x5 x6 := by
  funext i
  obtain ⟨b, j, rfl⟩ : ∃ (b : Fin 8192) (j : Fin 1024), i = ix2 b j := ⟨i 0, i 1, eq_ix2 i⟩
  rw [val_main_v40_apply, val_main_v35_apply, val_main_v34_apply, val_main_cst_4_apply, val_main_v33_apply,
    val_main_v32_apply, val_main_cst_3_apply, val_main_v31_apply, val_main_v30_apply, gate_output,
    val_main_v39_apply, cell_eq]
  simp only [Ideal.hostDivf_def, Ideal.addf_def, Ideal.mulf_def, Ideal.hostUnary_exp_def, Ideal.hostNegf_def, Ideal.negf_def, Ideal.hostUnary_tanh_def, Ideal.ofBits_def, logistic_spelt]
  rfl

end Cert.ReferenceIdeal.RefSpec

end
-- ==== Proof.lean ====
/-
  An LSTM cell, fused, against its plain formulation: both compute, on the extended reals, the same two arrays.

  The kernel tiles the 8192 batch rows into 32 blocks of 256. For each block it multiplies the inputs and the old hidden
  state by the four gates' weights laid side by side as 1024 × 4096 matrices, adds the summed biases, applies the
  logistic function to the input, forget and output gates and tanh to the candidate, and stores
      c' = f·c + i·g     and     h' = o·tanh(c').
  The reference contracts against the stacked 4 × 1024 × 1024 weights directly, adds the two biases one after the
  other, slices out the gates, and spells the logistic function as 1 / (1 + e^(-x)).
  On the extended reals a change of float format is the identity and a matrix product is the sum over the contracted
  axis, so the two differ only in how the same sums are laid out and in the grouping (s + s') + (u + v) against
  ((s + s') + u) + v — associativity of +, which holds at the infinities too; finiteness of the inputs is never used.
  `LstmSpec` states the two result arrays as functions of the arguments, `RefSpec` shows the reference computes
  them, `GateValue`, `HostArrays` and `CellValue` that the kernel does. The three programs' frames are the
  generated ones (the reference's is its run with the results dropped), and the idealization rewrote nothing.
-/
import proofs.«117419_j90958817394974_1_alg».proof.Defs
import proofs.«117419_j90958817394974_1_alg».proof.Proof.Gen.Kernel
import proofs.«117419_j90958817394974_1_alg».proof.Proof.Gen.Kernel.Skeleton
import proofs.«117419_j90958817394974_1_alg».proof.Proof.Gen.Kernel.Launch
import proofs.«117419_j90958817394974_1_alg».proof.Proof.Gen.Kernel.Points
import proofs.«117419_j90958817394974_1_alg».proof.Proof.Gen.Kernel.Frame
import proofs.«117419_j90958817394974_1_alg».proof.Proof.Gen.KernelIdeal
import proofs.«117419_j90958817394974_1_alg».proof.Proof.Gen.KernelIdeal.Skeleton
import proofs.«117419_j90958817394974_1_alg».proof.Proof.Gen.KernelIdeal.Launch
import proofs.«117419_j90958817394974_1_alg».proof.Proof.Gen.KernelIdeal.Points
import proofs.«117419_j90958817394974_1_alg».proof.Proof.Gen.KernelIdeal.Frame
import proofs.«117419_j90958817394974_1_alg».proof.Proof.Gen.ReferenceIdeal
import proofs.«117419_j90958817394974_1_alg».proof.Proof.Gen.Pre_finite_inputs
import proofs.«117419_j90958817394974_1_alg».proof.Proof.Gen.KernelIdeal.Value
import proofs.«117419_j90958817394974_1_alg».proof.Proof.Gen.ReferenceIdeal.Run
import proofs.«117419_j90958817394974_1_alg».proof.Proof.Gen.ReferenceIdeal.Read
import Idealize.ShloMosaic.Adequacy
import Idealize.ShloMosaic.Init
import proofs.«117419_j90958817394974_1_alg».proof.Proof.CellValue
import proofs.«117419_j90958817394974_1_alg».proof.Proof.RefSpec

noncomputable section

namespace Cert.Proof

open Idealize.ShloMosaic Idealize.SL.Sem

/-- The reference runs, and leaves its arguments as they were. -/
theorem frame_reference : Cert.frame_ReferenceIdeal := fun m ρ _ =>
  (θ_run Cert.ReferenceIdeal.defs _ _).mono (fun _ h c => (h c).2.2.2) (Cert.ReferenceIdeal.Value.run (F := Ideal) m ρ)

/-- From memories that agree on the seven arguments both programs end with the specification's new hidden state (twice)
    and new cell state. -/
theorem algebraic : Cert.algebraic_KernelIdeal_ReferenceIdeal := by
  intro m ρ m' ρ' _ hagree
  refine ⟨fun c => Cert.KernelIdeal.CellValue.hidArr m c, fun c => Cert.KernelIdeal.CellValue.hidArr m c,
    fun c => Cert.KernelIdeal.CellValue.cellArr m c, Cert.KernelIdeal.CellValue.run m ρ, ?_⟩
  refine (θ_run Cert.ReferenceIdeal.defs _ _).mono (fun _ h c => ?_) (Cert.ReferenceIdeal.Value.run (F := Ideal) m' ρ')
  obtain ⟨a0, a1, a2, a3, a4, a5, a6⟩ := hagree c
  have eh : Cert.ReferenceIdeal.Value.res_main_v40 m' c = Cert.KernelIdeal.CellValue.hidArr m c := by
    rw [Cert.ReferenceIdeal.Read.val_main_v40_eq, Cert.ReferenceIdeal.RefSpec.hid_eq, a0, a1, a2, a3, a4, a5, a6]
  refine ⟨(h c).1.trans eh, (h c).2.1.trans eh, (h c).2.2.1.trans ?_, (h c).2.2.2⟩
  rw [Cert.ReferenceIdeal.Read.val_main_v38_eq, Cert.ReferenceIdeal.RefSpec.cell_eq, a0, a1, a2, a3, a4, a5, a6]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_reference,
  trivial,
  algebraic⟩

end Cert.Proof

end
